-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2048x4096 .f32) (main_arg1 : IVec S11008x2048 32) (main_arg2 : FVec F S11008x32 .f32) (main_arg3 : FVec F S11008 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2048x4096 : Shape := ⟨2, ![2048, 4096]⟩
abbrev S11008x2048 : Shape := ⟨2, ![11008, 2048]⟩
abbrev S11008x32 : Shape := ⟨2, ![11008, 32]⟩
abbrev S11008 : Shape := ⟨1, ![11008]⟩
abbrev S1x11008 : Shape := ⟨2, ![1, 11008]⟩
abbrev S2048x11008 : Shape := ⟨2, ![2048, 11008]⟩
abbrev S512x4096 : Shape := ⟨2, ![512, 4096]⟩
abbrev S128x2048 : Shape := ⟨2, ![128, 2048]⟩
abbrev S128x32 : Shape := ⟨2, ![128, 32]⟩
abbrev S1x128 : Shape := ⟨2, ![1, 128]⟩
abbrev S512x128 : Shape := ⟨2, ![512, 128]⟩
abbrev S128x32x1 : Shape := ⟨3, ![128, 32, 1]⟩
abbrev S128x32x64 : Shape := ⟨3, ![128, 32, 64]⟩
abbrev S128x2048x1 : Shape := ⟨3, ![128, 2048, 1]⟩
abbrev S128x2048x2 : Shape := ⟨3, ![128, 2048, 2]⟩
abbrev S128x4096 : Shape := ⟨2, ![128, 4096]⟩
abbrev S1x4096 : Shape := ⟨2, ![1, 4096]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S11008x2048, .i32⟩
  | .hbm, ⟨2, _⟩ => ⟨S11008x32, .f32⟩
  | .hbm, ⟨3, _⟩ => ⟨S11008, .f32⟩
  | .hbm, ⟨4, _⟩ => ⟨S1x11008, .f32⟩
  | .hbm, ⟨5, _⟩ => ⟨S2048x11008, .f32⟩
  | .local _ .vmem, ⟨0, _⟩ => ⟨S512x4096, .f32⟩
  | .local _ .vmem, ⟨1, _⟩ => ⟨S512x4096, .f32⟩
  | .local _ .vmem, ⟨2, _⟩ => ⟨S128x2048, .i32⟩
  | .local _ .vmem, ⟨3, _⟩ => ⟨S128x2048, .i32⟩
  | .local _ .vmem, ⟨4, _⟩ => ⟨S128x32, .f32⟩
  | .local _ .vmem, ⟨5, _⟩ => ⟨S128x32, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S11008_S1x11008 : S11008.ShapeCasts S1x11008
  inb_S128x2048_S128x2048_0_0 : ∀ a, (![0, 0] : Fin 2 → Nat) a + S128x2048.size a ≤ S128x2048.size a
  h_S128x2048 : 0 < S128x2048.numel
  inb_S128x32_S128x32_0_0 : ∀ a, (![0, 0] : Fin 2 → Nat) a + S128x32.size a ≤ S128x32.size a
  h_S128x32 : 0 < S128x32.numel
  shapeCasts_S128x32_S128x32x1 : S128x32.ShapeCasts S128x32x1
  shapeCasts_S128x32x1_S128x32x1 : S128x32x1.ShapeCasts S128x32x1
  broadcasts_S128x32x1_S128x32x64 : S128x32x1.Broadcasts S128x32x64
  shapeCasts_S128x32x64_S128x2048 : S128x32x64.ShapeCasts S128x2048
  shapeCasts_S128x2048_S128x2048x1 : S128x2048.ShapeCasts S128x2048x1
  shapeCasts_S128x2048x1_S128x2048x1 : S128x2048x1.ShapeCasts S128x2048x1
  broadcasts_S128x2048x1_S128x2048x2 : S128x2048x1.Broadcasts S128x2048x2
  shapeCasts_S128x2048x2_S128x4096 : S128x2048x2.ShapeCasts S128x4096
  iota_S1x4096_d1_w32 : S1x4096.Iotas .tc 32 [1]
  natLt_1_32 : 1 < 32
  broadcasts_S1x4096_S128x4096 : S1x4096.Broadcasts S128x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S11008x2048.size a
  hwx0_1 : ∀ i : grid0.Coords, EltTy.bits .i32 = 32 ∨ (Rect.block (s := S11008x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x11008.size a
  hwx0_3 : ∀ i : grid0.Coords, EltTy.bits .f32 = 32 ∨ (Rect.block (s := S1x11008) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S2048x11008.size a
  hwx0_4 : ∀ i : grid0.Coords, EltTy.bits .f32 = 32 ∨ (Rect.block (s := S2048x11008) S512x128.size (cc0_transform_4 i) (hinb0_4 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S2048x11008 : Shape := ⟨2, ![2048, 11008]⟩
abbrev S1x11008 : Shape := ⟨2, ![1, 11008]⟩

abbrev nBuf : Space → Nat
  | .hbm => 30
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S11008x2048, .i32⟩
  | .hbm, ⟨2, _⟩ => ⟨S11008x32, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S11008x2048x1, .i32⟩
  | .hbm, ⟨14, _⟩ => ⟨S11008x2048x1, .i32⟩
  | .hbm, ⟨15, _⟩ => ⟨S11008x2048x2, .i32⟩
  | .hbm, ⟨16, _⟩ => ⟨S11008x4096, .i32⟩
  | .hbm, ⟨17, _⟩ => ⟨S11008x4096, .f32⟩
  | .hbm, ⟨18, _⟩ => ⟨S_, .f32⟩
  | .hbm, ⟨19, _⟩ => ⟨S11008x4096, .f32⟩
  | .hbm, ⟨20, _⟩ => ⟨S11008x4096, .f32⟩
  | .hbm, ⟨21, _⟩ => ⟨S11008x32x128, .f32⟩
  | .hbm, ⟨22, _⟩ => ⟨S11008x32x1, .f32⟩
  | .hbm, ⟨23, _⟩ => ⟨S11008x32x128, .f32⟩
  | .hbm, ⟨24, _⟩ => ⟨S11008x32x128, .f32⟩
  | .hbm, ⟨25, _⟩ => ⟨S11008x4096, .f32⟩
  | .hbm, ⟨26, _⟩ => ⟨S2048x11008, .f32⟩
  | .hbm, ⟨27, _⟩ => ⟨S1x11008, .f32⟩
  | .hbm, ⟨28, _⟩ => ⟨S2048x11008, .f32⟩
  | .hbm, ⟨29, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  dot_S2048x4096_S11008x4096_S2048x11008_1_1_0_0_n_n_wf : DotDims.WF S2048x4096 S11008x4096 S2048x11008 [1] [1] [0] [0] [] []

variable [Facts₀]

def dot_S2048x4096_S11008x4096_S2048x11008_1_1_0_0_n_n : DotDims S2048x4096 S11008x4096 S2048x11008 where
  lhsContracting := [1]
  rhsContracting := [1]
  lhsNonContracting := [0]
  rhsNonContracting := [0]
  lhsBatch := []
  rhsBatch := []
  wf := dot_S2048x4096_S11008x4096_S2048x11008_1_1_0_0_n_n_wf

class Facts : Prop extends Facts₀ where

variable [Facts]
-- ==== Proof.Nibble.lean ====
/-
  Int4 weights packed two to a word. A 32-bit word `w` of the packed matrix carries two 4-bit fields: bits 0–3
  and bits 4–7. Column `i` of the unpacked row reads word `i / 2`; an even column takes the low field, an odd
  column the next one. The field, read as an integer in [0, 15], is recentred by 8 and multiplied by the scale of
  the column's group of 128 columns: that product is the weight. This module states that weight as one function
  of (word, scale, column), the two word-level facts both programs need (an arithmetic shift by 4 is the same
  function on the host and on the vector unit; the float of the test "column is even" is 1 or 0), and the
  arithmetic by which a mask of ones on even columns selects between the two fields' weights:
  `lo · m + hi · (1 − m)` is `lo` where `m = 1` and `hi` where `m = 0` — on the extended reals this needs no
  finiteness, because `x · 0 = 0` and `x · 1 = x` hold for every extended real, infinities included.
  Last, the whole layer: out[t, o] = Σ_i x[t, i] · weight[o, i] + bias[o].
-/
import Idealize.ShloMosaic.PureOps.Ideal
import Idealize.ShloMosaic.PureOps.Ideal.Laws
import Idealize.ShloMosaic.Lib.ValueIdx

noncomputable section

open scoped BigOperators

namespace Cert.QLinear

open Idealize.ShloMosaic Idealize.ShloMosaic.ValueIdx

/-! ## Words -/

/-- An arithmetic right shift of a 32-bit word by 4 is in range, so the host's and the vector unit's agree. -/
theorem shr4_host (w : BitVec 32) : IntOp.shrsi .host w 4#32 = IntOp.shrsi .vector w 4#32 := by
  unfold IntOp.shrsi
  rw [if_pos (by decide), if_pos (by decide)]

/-- The low bit of a column number is its parity. -/
theorem and_one (i : ℕ) : IntOp.andi (BitVec.ofNat 32 i) 1#32 = BitVec.ofNat 32 (i % 2) := by
  apply BitVec.eq_of_toNat_eq
  simp only [IntOp.andi, BitVec.toNat_and, BitVec.toNat_ofNat]
  rw [show (1 % 2 ^ 32 : ℕ) = 1 from rfl, Nat.and_one_is_mod]
  omega

/-- The pattern of `1.0` denotes `1`. -/
theorem word_one : Ideal.ofBits .f32 0x3F800000#32 = 1 := by
  simp [Ideal.ofBits, Ideal.ieee, -EReal.coe_mul]; norm_num

/-- The float of "column `i` is even" (the one-bit comparison widened to a word, then converted): 1 on even
    columns, 0 on odd ones. -/
theorem even_mask (i : ℕ) :
    FloatOps.sitofp (F := Ideal) .f32 ((IntOp.cmpi .eq (IntOp.andi (BitVec.ofNat 32 i) 1#32) 0#32).setWidth 32)
      = if i % 2 = 0 then (1 : EReal) else 0 := by
  rw [and_one]
  rcases Nat.mod_two_eq_zero_or_one i with h | h <;> rw [h]
  · have e : ((IntOp.cmpi .eq (BitVec.ofNat 32 0) 0#32).setWidth 32).toInt = 1 := by decide
    show (((((IntOp.cmpi .eq (BitVec.ofNat 32 0) 0#32).setWidth 32).toInt : ℤ) : ℝ) : EReal) = _
    rw [e, if_pos rfl]; norm_num
  · have e : ((IntOp.cmpi .eq (BitVec.ofNat 32 1) 0#32).setWidth 32).toInt = 0 := by decide
    show (((((IntOp.cmpi .eq (BitVec.ofNat 32 1) 0#32).setWidth 32).toInt : ℤ) : ℝ) : EReal) = _
    rw [e, if_neg (by decide)]; norm_num

/-! ## One weight -/

/-- The 4-bit field of word `w` that column `i` reads: the low field on an even column, the next on an odd one. -/
def field (w : BitVec 32) (i : ℕ) : BitVec 32 :=
  if i % 2 = 0 then IntOp.andi w 15#32 else IntOp.andi (IntOp.shrsi .vector w 4#32) 15#32

/-- A field's weight: the field as a signed integer, less 8, times the scale. -/
def scaled (f : BitVec 32) (s : EReal) : EReal :=
  (FloatOps.sitofp (F := Ideal) .f32 f - Ideal.ofBits .f32 0x41000000#32) * s

/-- THE WEIGHT of column `i` from its word and its group's scale. -/
def weight (w : BitVec 32) (s : EReal) (i : ℕ) : EReal := scaled (field w i) s

/-- Selecting by the even-column mask: with `m` the mask's value at column `i`, `lo · m + hi · (1 − m)` is the low
    field's weight on an even column and the high field's on an odd one. -/
theorem select_by_mask (w : BitVec 32) (s : EReal) (i : ℕ) :
    scaled (IntOp.andi w 15#32) s * (if i % 2 = 0 then (1 : EReal) else 0)
        + scaled (IntOp.andi (IntOp.shrsi .vector w 4#32) 15#32) s
          * (Ideal.ofBits .f32 0x3F800000#32 - (if i % 2 = 0 then (1 : EReal) else 0))
      = weight w s i := by
  unfold weight field
  rw [word_one]
  by_cases h : i % 2 = 0
  · simp only [if_pos h]
    have one_sub_one : (1 : EReal) - 1 = 0 := by
      rw [← EReal.coe_one, ← EReal.coe_sub, sub_self, EReal.coe_zero]
    rw [mul_one, one_sub_one, mul_zero, add_zero]
  · simp only [if_neg h]
    rw [mul_zero, sub_zero, mul_one, zero_add]

/-! ## The layer -/

/-- out[t, o] = Σ_i x[t, i] · weight(packed[o, i / 2], scales[o, i / 128], i) + bias[o]. -/
def layer (x : (⟨2, ![2048, 4096]⟩ : Shape).Idx → EReal) (packed : (⟨2, ![11008, 2048]⟩ : Shape).Idx → BitVec 32)
    (scales : (⟨2, ![11008, 32]⟩ : Shape).Idx → EReal) (bias : (⟨1, ![11008]⟩ : Shape).Idx → EReal) :
    (⟨2, ![2048, 11008]⟩ : Shape).Idx → EReal := fun j =>
  (∑ k : Fin 4096, x (ix2 (j 0) k)
      * weight (packed (ix2 (j 1) (⟨k.val / 2, by omega⟩ : Fin 2048))) (scales (ix2 (j 1) (⟨k.val / 128, by omega⟩ : Fin 32))) k.val)
    + bias (ix1 (j 1))

end Cert.QLinear

end
-- ==== Proof.KernelBlock.lean ====
/-
  One grid point's block of the kernel, read at an index. The body takes a [128, 2048] block of packed words, a
  [128, 32] block of scales, a [512, 4096] block of `x` and a [1, 128] block of the bias row. From the words it
  builds the two half-width matrices of scaled fields — low fields and high fields, each word's scale taken from its
  group of 64 words (= 128 columns) —, widens each to full width by repeating every entry twice, and interleaves
  them with a 0/1 mask of the even columns: entry (q, i) of the result is the low field's weight of word `i / 2` on
  an even column `i`, the high field's on an odd one — the weight of Proof/Nibble.lean. The block of the output is
  then the product of the `x` block with the transpose of that [128, 4096] matrix, plus the bias row on every line.
  The body's value is first restated over named stages (the same term, stage by stage), and each stage is read at an
  index on its own.
-/
import proofs.«408090_j41240275976514_1_alg».proof.Proof.Gen.KernelIdeal.Skeleton
import proofs.«408090_j41240275976514_1_alg».proof.Proof.Nibble
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx
open Cert.QLinear

/-! ## The layout stages -/

/-- A value per group, repeated for each of the group's 64 words: word `k` of a row reads group `k / 64`. -/
def perWord {α : Type} (s : S128x32.Idx → α) : S128x2048.Idx → α :=
  shapeCast S128x2048 (broadcastTo S128x32x64 (shapeCast S128x32x1 (shapeCast S128x32x1 s shapeCasts_S128x32_S128x32x1)
    shapeCasts_S128x32x1_S128x32x1) broadcasts_S128x32x1_S128x32x64) shapeCasts_S128x32x64_S128x2048

theorem perWord_apply {α : Type} (s : S128x32.Idx → α) (q : Fin 128) (k : Fin 2048) (g : Fin 32) (hg : g.val = k.val / 64) :
    perWord s (ix2 q k) = s (ix2 q g) := by
  unfold perWord
  have hq : q.val < 128 := q.isLt
  have hk : k.val < 2048 := k.isLt
  refine (shapeCast_apply _ shapeCasts_S128x32x64_S128x2048 (ix2 q k) (ix3 q g (⟨k.val % 64, by omega⟩ : Fin 64)) ?_).trans ?_
  · rw [Shape.rowMajor_val_three, Shape.rowMajor_val_two]
    show (q.val * 32 + g.val) * 64 + k.val % 64 = q.val * 2048 + k.val
    omega
  refine (broadcastTo_apply _ broadcasts_S128x32x1_S128x32x64 (ix3 q g (⟨k.val % 64, by omega⟩ : Fin 64)) (ix3 q g (0 : Fin 1)) (fun a => ?_)).trans ?_
  · match a with
    | ⟨0, _⟩ => show q.val = if (128 : ℕ) = 1 then 0 else q.val; rw [if_neg (by decide)]
    | ⟨1, _⟩ => show g.val = if (32 : ℕ) = 1 then 0 else g.val; rw [if_neg (by decide)]
    | ⟨2, _⟩ => show 0 = if (1 : ℕ) = 1 then 0 else k.val % 64; rw [if_pos rfl]
  rw [shapeCast_self]
  refine shapeCast_apply _ shapeCasts_S128x32_S128x32x1 (ix3 q g (0 : Fin 1)) (ix2 q g) ?_
  rw [Shape.rowMajor_val_three, Shape.rowMajor_val_two]
  show q.val * 32 + g.val = (q.val * 32 + g.val) * 1 + 0
  omega

/-- A half-width matrix widened to full width, every entry repeated twice: column `i` reads word `i / 2`. -/
def widen {α : Type} (u : S128x2048.Idx → α) : S128x4096.Idx → α :=
  shapeCast S128x4096 (broadcastTo S128x2048x2 (shapeCast S128x2048x1 (shapeCast S128x2048x1 u shapeCasts_S128x2048_S128x2048x1)
    shapeCasts_S128x2048x1_S128x2048x1) broadcasts_S128x2048x1_S128x2048x2) shapeCasts_S128x2048x2_S128x4096

theorem widen_apply {α : Type} (u : S128x2048.Idx → α) (q : Fin 128) (i : Fin 4096) (k : Fin 2048) (hk : k.val = i.val / 2) :
    widen u (ix2 q i) = u (ix2 q k) := by
  unfold widen
  have hq : q.val < 128 := q.isLt
  have hi : i.val < 4096 := i.isLt
  refine (shapeCast_apply _ shapeCasts_S128x2048x2_S128x4096 (ix2 q i) (ix3 q k (⟨i.val % 2, by omega⟩ : Fin 2)) ?_).trans ?_
  · rw [Shape.rowMajor_val_three, Shape.rowMajor_val_two]
    show (q.val * 2048 + k.val) * 2 + i.val % 2 = q.val * 4096 + i.val
    omega
  refine (broadcastTo_apply _ broadcasts_S128x2048x1_S128x2048x2 (ix3 q k (⟨i.val % 2, by omega⟩ : Fin 2)) (ix3 q k (0 : Fin 1)) (fun a => ?_)).trans ?_
  · match a with
    | ⟨0, _⟩ => show q.val = if (128 : ℕ) = 1 then 0 else q.val; rw [if_neg (by decide)]
    | ⟨1, _⟩ => show k.val = if (2048 : ℕ) = 1 then 0 else k.val; rw [if_neg (by decide)]
    | ⟨2, _⟩ => show 0 = if (1 : ℕ) = 1 then 0 else i.val % 2; rw [if_pos rfl]
  rw [shapeCast_self]
  refine shapeCast_apply _ shapeCasts_S128x2048_S128x2048x1 (ix3 q k (0 : Fin 1)) (ix2 q k) ?_
  rw [Shape.rowMajor_val_three, Shape.rowMajor_val_two]
  show q.val * 2048 + k.val = (q.val * 2048 + k.val) * 1 + 0
  omega

/-! ## The two half-width matrices of scaled fields -/

/-- The low fields, recentred and scaled: entry (q, k) is word (q, k)'s low field's weight. -/
def lowScaled (v0 : Vec Ideal S128x2048 .i32) (v13 : Vec Ideal S128x32 .f32) : FVec Ideal S128x2048 .f32 :=
  mulf (subf (sitofp .f32 (andi v0 (broadcast S128x2048 15#32))) (broadcast S128x2048 (Scalar.ofBits .f32 0x41000000#32)))
    (perWord v13)

/-- The high fields, recentred and scaled. -/
def highScaled (v0 : Vec Ideal S128x2048 .i32) (v13 : Vec Ideal S128x32 .f32) : FVec Ideal S128x2048 .f32 :=
  mulf (subf (sitofp .f32 (andi (shrsi v0 (broadcast S128x2048 4#32)) (broadcast S128x2048 15#32)))
    (broadcast S128x2048 (Scalar.ofBits .f32 0x41000000#32))) (perWord v13)

theorem lowScaled_apply (v0 : Vec Ideal S128x2048 .i32) (v13 : Vec Ideal S128x32 .f32) (q : Fin 128) (k : Fin 2048) (g : Fin 32)
    (hg : g.val = k.val / 64) :
    lowScaled v0 v13 (ix2 q k) = scaled (IntOp.andi (v0 (ix2 q k)) 15#32) (v13 (ix2 q g)) := by
  show (FloatOps.sitofp (F := Ideal) .f32 (IntOp.andi (v0 (ix2 q k)) 15#32) - Ideal.ofBits .f32 0x41000000#32) * perWord v13 (ix2 q k) = _
  rw [perWord_apply v13 q k g hg]
  rfl

theorem highScaled_apply (v0 : Vec Ideal S128x2048 .i32) (v13 : Vec Ideal S128x32 .f32) (q : Fin 128) (k : Fin 2048) (g : Fin 32)
    (hg : g.val = k.val / 64) :
    highScaled v0 v13 (ix2 q k) = scaled (IntOp.andi (IntOp.shrsi .vector (v0 (ix2 q k)) 4#32) 15#32) (v13 (ix2 q g)) := by
  show (FloatOps.sitofp (F := Ideal) .f32 (IntOp.andi (IntOp.shrsi .vector (v0 (ix2 q k)) 4#32) 15#32) - Ideal.ofBits .f32 0x41000000#32)
      * perWord v13 (ix2 q k) = _
  rw [perWord_apply v13 q k g hg]
  rfl

/-! ## The masks -/

/-- One row: 1 on even columns, 0 on odd ones. -/
def evenRow : FVec Ideal S1x4096 .f32 :=
  sitofp .f32 (extui 32 (cmpi .eq (andi (iota .tc S1x4096 32 [1] iota_S1x4096_d1_w32) (broadcast S1x4096 1#32)) (broadcast S1x4096 0#32)) natLt_1_32)

theorem evenRow_apply (i : Fin 4096) : evenRow (ix2 (0 : Fin 1) i) = if i.val % 2 = 0 then (1 : EReal) else 0 := by
  show FloatOps.sitofp (F := Ideal) .f32
      ((IntOp.cmpi .eq (IntOp.andi (iota .tc S1x4096 32 [1] iota_S1x4096_d1_w32 (ix2 (0 : Fin 1) i)) 1#32) 0#32).setWidth 32) = _
  rw [iota_single_apply]
  exact even_mask i.val

/-- The even-column mask and its complement, on all 128 rows. -/
def evenMask : FVec Ideal S128x4096 .f32 := broadcastTo S128x4096 evenRow broadcasts_S1x4096_S128x4096
def oddMask : FVec Ideal S128x4096 .f32 :=
  broadcastTo S128x4096 (subf (broadcast S1x4096 (Scalar.ofBits .f32 0x3F800000#32)) evenRow) broadcasts_S1x4096_S128x4096

theorem evenMask_apply (q : Fin 128) (i : Fin 4096) : evenMask (ix2 q i) = if i.val % 2 = 0 then (1 : EReal) else 0 := by
  unfold evenMask
  rw [broadcastTo_1b_ab_apply]
  exact evenRow_apply i

theorem oddMask_apply (q : Fin 128) (i : Fin 4096) :
    oddMask (ix2 q i) = Ideal.ofBits .f32 0x3F800000#32 - (if i.val % 2 = 0 then (1 : EReal) else 0) := by
  unfold oddMask
  rw [broadcastTo_1b_ab_apply]
  show Ideal.ofBits .f32 0x3F800000#32 - evenRow (ix2 (0 : Fin 1) i) = _
  rw [evenRow_apply]

/-! ## The dequantized block -/

/-- The body's dequantized [128, 4096] matrix IS the interleave of the two widened matrices by the masks (the
    narrowing to bf16 is the identity on extended reals). -/
theorem dequant_stages (v0 : Vec Ideal S128x2048 .i32) (v13 : Vec Ideal S128x32 .f32) :
    k0_pay2 (F := Ideal) v0 v13
      = addf (mulf (widen (lowScaled v0 v13)) evenMask) (mulf (widen (highScaled v0 v13)) oddMask) := rfl

/-- ENTRY (q, i) OF THE DEQUANTIZED BLOCK: the weight of column `i` from word `i / 2` of row `q` and the scale of
    group `i / 128`. -/
theorem dequant_apply (v0 : Vec Ideal S128x2048 .i32) (v13 : Vec Ideal S128x32 .f32) (q : Fin 128) (i : Fin 4096) :
    k0_pay2 (F := Ideal) v0 v13 (ix2 q i)
      = weight (v0 (ix2 q (⟨i.val / 2, by omega⟩ : Fin 2048))) (v13 (ix2 q (⟨i.val / 128, by omega⟩ : Fin 32))) i.val := by
  rw [dequant_stages]
  show widen (lowScaled v0 v13) (ix2 q i) * evenMask (ix2 q i) + widen (highScaled v0 v13) (ix2 q i) * oddMask (ix2 q i) = _
  rw [widen_apply _ q i (⟨i.val / 2, by omega⟩ : Fin 2048) rfl, widen_apply _ q i (⟨i.val / 2, by omega⟩ : Fin 2048) rfl,
    evenMask_apply, oddMask_apply,
    lowScaled_apply v0 v13 q _ (⟨i.val / 128, by omega⟩ : Fin 32) (by show i.val / 128 = i.val / 2 / 64; omega),
    highScaled_apply v0 v13 q _ (⟨i.val / 128, by omega⟩ : Fin 32) (by show i.val / 128 = i.val / 2 / 64; omega)]
  exact select_by_mask _ _ _

/-! ## The product and the bias -/

theorem lhs_dot_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide),
    dif_pos (show (0 : Fin S512x4096.rank) ∈ dot_S512x4096_S128x4096_S512x128_1_1_0_0_n_n.lhsNonContracting by decide)]
  rfl
theorem lhs_dot_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rhs_dot_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide),
    dif_pos (show (0 : Fin S128x4096.rank) ∈ dot_S512x4096_S128x4096_S512x128_1_1_0_0_n_n.rhsNonContracting by decide)]
  rfl
theorem rhs_dot_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-- The matrix product into a zero accumulator, read at (p, q): row `p` of the left operand against row `q` of the
    right one, summed over the 4096 columns. -/
theorem product_apply (l : FVec Ideal S512x4096 .bf16) (r : FVec Ideal S128x4096 .bf16) (p : Fin 512) (q : Fin 128) :
    matmul dot_S512x4096_S128x4096_S512x128_1_1_0_0_n_n none l r (constant S512x128 .f32 0x00000000#32) (ix2 p q)
      = ∑ k : Fin 4096, l (ix2 p k) * r (ix2 q k) := by
  simp only [matmul]
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p q) ((contrEquiv1 dot_S512x4096_S128x4096_S512x128_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S512x4096_S128x4096_S512x128_1_1_0_0_n_n.rhsIdx (ix2 p q) ((contrEquiv1 dot_S512x4096_S128x4096_S512x128_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-- The stored value at (p, q): the product's entry plus the bias of column `q`. -/
theorem stored_apply (v42 : FVec Ideal S128x4096 .bf16) (v43 : Vec Ideal S512x4096 .f32) (v46 : Vec Ideal S1x128 .f32)
    (p : Fin 512) (q : Fin 128) :
    k0_pay1 (F := Ideal) v42 v43 v46 (ix2 p q) = (∑ k : Fin 4096, v43 (ix2 p k) * v42 (ix2 q k)) + v46 (ix2 (0 : Fin 1) q) := by
  unfold k0_pay1
  show matmul dot_S512x4096_S128x4096_S512x128_1_1_0_0_n_n none (truncf .bf16 v43 bitsLt_bf16_f32) v42 (constant S512x128 .f32 0x00000000#32) (ix2 p q)
      + broadcastTo S512x128 (shapeCast S1x128 v46 shapeCasts_S1x128_S1x128) broadcasts_S1x128_S512x128 (ix2 p q) = _
  rw [product_apply, broadcastTo_1b_ab_apply, shapeCast_self]
  rfl

/-! ## The block as one function of the four input blocks -/

/-- What one grid point stores: entry (p, q) is row `p` of the `x` block against the dequantized row `q`, plus the
    bias of column `q`. -/
def blockOut (x0 : Vec Ideal S512x4096 .f32) (x1 : Vec Ideal S128x2048 .i32) (x2 : Vec Ideal S128x32 .f32) (x3 : Vec Ideal S1x128 .f32) :
    Vec Ideal S512x128 .f32 := fun y =>
  (∑ k : Fin 4096, x0 (ix2 (y 0) k)
      * weight (x1 (ix2 (y 1) (⟨k.val / 2, by omega⟩ : Fin 2048))) (x2 (ix2 (y 1) (⟨k.val / 128, by omega⟩ : Fin 32))) k.val)
    + x3 (ix2 (0 : Fin 1) (y 1))

theorem stored_eq (x0 : Vec Ideal S512x4096 .f32) (x1 : Vec Ideal S128x2048 .i32) (x2 : Vec Ideal S128x32 .f32) (x3 : Vec Ideal S1x128 .f32) :
    k0_pay1 (F := Ideal) (k0_pay2 (F := Ideal) x1 x2) x0 x3 = blockOut x0 x1 x2 x3 := by
  funext y
  obtain ⟨p, q, rfl⟩ : ∃ (p : Fin 512) (q : Fin 128), y = ix2 p q := ⟨y 0, y 1, eq_ix2 y⟩
  rw [stored_apply]
  unfold blockOut
  refine congrArg (· + x3 (ix2 (0 : Fin 1) q)) (Finset.sum_congr rfl fun k _ => ?_)
  rw [dequant_apply]

end Cert.KernelIdeal.Block

end
-- ==== Proof.KernelArray.lean ====
/-
  From blocks to the array. The grid has 4 × 86 points; point `t` = (a, b), a = t / 86, b = t % 86, fetches rows
  `512a … 512a + 511` of `x` (all 4096 columns), rows `128b … 128b + 127` of the packed words and of the scales (all
  their columns), entries `128b … 128b + 127` of the bias row, and writes back block (a, b) of the output: rows
  `512a …`, columns `128b …`. Entry (p, q) of what the body stores is row `p` of the `x` block against the
  dequantized row `q` of the weight block, plus the bias of column `q` — which is entry (512a + p, 128b + q) of the
  layer of Proof/Nibble.lean, because a row of the dequantized matrix depends only on that row of the words and of
  the scales. The 344 blocks tile the [2048, 11008] output, so the output array ends holding the layer.
-/
import proofs.«408090_j41240275976514_1_alg».proof.Proof.Gen.KernelIdeal.Value
import proofs.«408090_j41240275976514_1_alg».proof.Proof.KernelBlock
import Idealize.ShloMosaic.Lib.StableHlo.Run

noncomputable section

open scoped BigOperators

namespace Cert.KernelIdeal.Whole

open Cert.KernelIdeal Cert.KernelIdeal.Gen Cert.KernelIdeal.Value Cert.KernelIdeal.Block
open Idealize.ShloMosaic Idealize.ShloMosaic.TcCoe Idealize.ShloMosaic.ValueIdx Idealize.SL.Sem Idealize.ShloMosaic.StableHlo
open Idealize.ShloMosaic.Pipeline (Dat)
open Cert.QLinear

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps over the grid: point `t` is (t / 86, t % 86); `x` moves with the first coordinate, the
    words, the scales and the bias row with the second, the output with both. -/
theorem idx_facts : ∀ t : Fin cfg0.N,
    win0_4.index t (0 : Fin 2) = t.val / 86 ∧ win0_4.index t (1 : Fin 2) = t.val % 86
    ∧ win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86 :=
  (by decide +kernel : ∀ t : Fin grid0.N, _)

/-! ## The input blocks, read off the arguments -/

/-- The `x` block at point `t`: rows `512 (t / 86) …` of `x`, every column. -/
theorem xblk_apply (c : Dev nD) (t : Fin cfg0.N) (p : Fin 512) (k : Fin 4096) (r : Fin 2048) (hr : r.val = t.val / 86 * 512 + p.val) :
    (iblk m c 0 t : Vec Ideal S512x4096 .f32) (ix2 p k)
      = (m ((c : Thread nD τ).loc main_arg0) : S2048x4096.Idx → EReal) (ix2 r k) := by
  obtain ⟨-, -, e0, e1, -⟩ := idx_facts t
  unfold iblk
  rw [View.read_apply]
  refine Eq.trans ?_ (congrFun (V_main_arg0 m c) (ix2 r k))
  show V m c main_arg0 _ = V m c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The block of packed words at point `t`: rows `128 (t % 86) …`, every word. -/
theorem wblk_apply (c : Dev nD) (t : Fin cfg0.N) (q : Fin 128) (k : Fin 2048) (o : Fin 11008) (ho : o.val = t.val % 86 * 128 + q.val) :
    (iblk m c 1 t : Vec Ideal S128x2048 .i32) (ix2 q k)
      = (m ((c : Thread nD τ).loc main_arg1) : S11008x2048.Idx → BitVec 32) (ix2 o k) := by
  obtain ⟨-, -, -, -, e0, e1, -⟩ := idx_facts t
  unfold iblk
  rw [View.read_apply]
  refine Eq.trans ?_ (congrFun (V_main_arg1 m c) (ix2 o k))
  show V m c main_arg1 _ = V m c main_arg1 _
  congr 1
  funext a
  apply Fin.ext
  match a with
  | ⟨0, _⟩ => show win0_1.index t (0 : Fin 2) * 128 + 1 * q.val = o.val; rw [e0, ho]; omega
  | ⟨1, _⟩ => show win0_1.index t (1 : Fin 2) * 2048 + 1 * k.val = k.val; rw [e1]; omega

/-- The block of scales at point `t`: rows `128 (t % 86) …`, every group. -/
theorem sblk_apply (c : Dev nD) (t : Fin cfg0.N) (q : Fin 128) (g : Fin 32) (o : Fin 11008) (ho : o.val = t.val % 86 * 128 + q.val) :
    (iblk m c 2 t : Vec Ideal S128x32 .f32) (ix2 q g)
      = (m ((c : Thread nD τ).loc main_arg2) : S11008x32.Idx → EReal) (ix2 o g) := by
  obtain ⟨-, -, -, -, -, -, e0, e1, -⟩ := idx_facts t
  unfold iblk
  rw [View.read_apply]
  refine Eq.trans ?_ (congrFun (V_main_arg2 m c) (ix2 o g))
  show V m c main_arg2 _ = V m c main_arg2 _
  congr 1
  funext a
  apply Fin.ext
  match a with
  | ⟨0, _⟩ => show win0_2.index t (0 : Fin 2) * 128 + 1 * q.val = o.val; rw [e0, ho]; omega
  | ⟨1, _⟩ => show win0_2.index t (1 : Fin 2) * 32 + 1 * g.val = g.val; rw [e1]; omega

/-- The bias as the region finds it is the bias vector laid out as one row. -/
theorem biasRow_eq (c : Dev nD) :
    (V m c main_v0 : S1x11008.Idx → EReal) = shapeCast S1x11008 (m ((c : Thread nD τ).loc main_arg3)) shapeCasts_S11008_S1x11008 := by
  dsimp only [Gen.V, Gen.hostOps0]
  after_results
  rfl

/-- The block of the bias row at point `t`: entries `128 (t % 86) …` of the bias vector. -/
theorem bblk_apply (c : Dev nD) (t : Fin cfg0.N) (q : Fin 128) (o : Fin 11008) (ho : o.val = t.val % 86 * 128 + q.val) :
    (iblk m c 3 t : Vec Ideal S1x128 .f32) (ix2 (0 : Fin 1) q)
      = (m ((c : Thread nD τ).loc main_arg3) : S11008.Idx → EReal) (ix1 o) := by
  obtain ⟨-, -, -, -, -, -, -, -, e0, e1⟩ := idx_facts t
  unfold iblk
  rw [View.read_apply]
  have row : (V m c main_v0 : S1x11008.Idx → EReal) (ix2 (0 : Fin 1) o) = (m ((c : Thread nD τ).loc main_arg3) : S11008.Idx → EReal) (ix1 o) := by
    rw [biasRow_eq]
    refine shapeCast_apply _ shapeCasts_S11008_S1x11008 (ix2 (0 : Fin 1) o) (ix1 o) ?_
    rw [Shape.rowMajor_val_one, Shape.rowMajor_val_two]
    show o.val = 0 * 11008 + o.val
    rw [Nat.zero_mul, Nat.zero_add]
  refine Eq.trans ?_ row
  show V m c main_v0 _ = V m c main_v0 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = o.val; rw [e1, ho]; omega

/-! ## What a point writes back is its block of the layer -/

/-- Entry `y` of the block point `t` stores is the layer at the array index under it. -/
theorem block_is_layer (c : Dev nD) (t : Fin cfg0.N) (y : S512x128.Idx) (i : S2048x11008.Idx)
    (h0 : (i 0).val = win0_4.index t (0 : Fin 2) * 512 + (y 0).val) (h1 : (i 1).val = win0_4.index t (1 : Fin 2) * 128 + (y 1).val) :
    blockOut (iblk m c 0 t) (iblk m c 1 t) (iblk m c 2 t) (iblk m c 3 t) y
      = layer (m ((c : Thread nD τ).loc main_arg0)) (m ((c : Thread nD τ).loc main_arg1)) (m ((c : Thread nD τ).loc main_arg2))
          (m ((c : Thread nD τ).loc main_arg3)) i := by
  obtain ⟨e0, e1, -⟩ := idx_facts t
  obtain ⟨p, q, rfl⟩ : ∃ (p : Fin 512) (q : Fin 128), y = ix2 p q := ⟨y 0, y 1, eq_ix2 y⟩
  obtain ⟨r, o, rfl⟩ : ∃ (r : Fin 2048) (o : Fin 11008), i = ix2 r o := ⟨i 0, i 1, eq_ix2 i⟩
  have hr : r.val = t.val / 86 * 512 + p.val := by rw [e0] at h0; exact h0
  have ho : o.val = t.val % 86 * 128 + q.val := by rw [e1] at h1; exact h1
  unfold blockOut layer
  refine congrArg₂ (· + ·) (Finset.sum_congr rfl fun k _ => ?_) (bblk_apply m c t q o ho)
  exact congrArg₂ (· * ·) (xblk_apply m c t p k r hr)
    (congrArg₂ (fun w s => weight w s k.val) (wblk_apply m c t q _ o ho) (sblk_apply m c t q _ o ho))

/-- WHAT POINT `t` WRITES BACK is block `t` of the layer of the four arguments. -/
theorem flushed_eq (c : Dev nD) (t : Fin cfg0.N) :
    (dats m 0 c).flushed 4 t = ((cfg0.win 4).blk t).view.read (Elt Ideal)
      (layer (m ((c : Thread nD τ).loc main_arg0)) (m ((c : Thread nD τ).loc main_arg1)) (m ((c : Thread nD τ).loc main_arg2))
        (m ((c : Thread nD τ).loc main_arg3))) := by
  rw [flushed4]
  unfold out0_4
  rw [View.canon_unit_zero zeros2]
  simp only [View.ld_unit_zero (S := S512x4096) zeros2, View.ld_unit_zero (S := S128x2048) zeros2,
    View.ld_unit_zero (S := S128x32) zeros2, View.ld_unit_zero (S := S1x128) zeros2]
  rw [show k0_pay1 (F := Ideal) (k0_pay2 (F := Ideal) (iblk m c 1 t) (iblk m c 2 t)) (iblk m c 0 t) (iblk m c 3 t)
      = blockOut (iblk m c 0 t) (iblk m c 1 t) (iblk m c 2 t) (iblk m c 3 t) from stored_eq _ _ _ _]
  funext j
  show blockOut (iblk m c 0 t) (iblk m c 1 t) (iblk m c 2 t) (iblk m c 3 t) j
    = layer (m ((c : Thread nD τ).loc main_arg0)) (m ((c : Thread nD τ).loc main_arg1)) (m ((c : Thread nD τ).loc main_arg2))
        (m ((c : Thread nD τ).loc main_arg3)) (((cfg0.win 4).blk t).view.emb j)
  refine block_is_layer m c t j _ ?_ ?_
  · show win0_4.index t (0 : Fin 2) * 512 + 1 * (j 0).val = win0_4.index t (0 : Fin 2) * 512 + (j 0).val
    omega
  · show win0_4.index t (1 : Fin 2) * 128 + 1 * (j 1).val = win0_4.index t (1 : Fin 2) * 128 + (j 1).val
    omega

/-! ## The blocks tile the output -/

/-- An index of the output is in point `t`'s block iff each coordinate is in the block's range on its axis. -/
theorem mem_blk (t : Fin cfg0.N) (i : S2048x11008.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v1).slice (win0_4.rect t)).set ↔ _
  rw [View.set_slice_whole, Rect.mem_set_unit]
  exact Iff.rfl

/-- Every index of the output is in the block of the point (row / 512, column / 128). -/
theorem cover (i : S2048x11008.Idx) : ∃ t : Fin cfg0.N, (cfg0.win 4).flush t = true ∧ i ∈ ((cfg0.win 4).blk t).view.set := by
  have hi0 : (i 0).val < 2048 := (i 0).isLt
  have hi1 : (i 1).val < 11008 := (i 1).isLt
  have hN : cfg0.N = 344 := N_0
  let t : Fin cfg0.N := ⟨(i 0).val / 512 * 86 + (i 1).val / 128, by rw [hN]; omega⟩
  have ht : t.val = (i 0).val / 512 * 86 + (i 1).val / 128 := rfl
  obtain ⟨e0, e1, -⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 128 ≤ (i 1).val ∧ (i 1).val < win0_4.index t (1 : Fin 2) * 128 + 128
    rw [e1, ht]; omega

/-- THE OUTPUT ARRAY after the run is the layer of the four arguments. -/
theorem final (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run, read: the result array holds the layer, the arguments are unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefValue.lean ====
/-
  The reference, read at an index. jnp unpacks the two fields of every word side by side (a stack on a new last
  axis, flattened: column `2k` holds word `k`'s low field and column `2k + 1` its high field), converts, recentres
  by 8, views the row as 32 groups of 128 columns to multiply each group by its scale, flattens again, and
  contracts with `x` over the 4096 columns before adding the bias row. Index by index that is the layer of
  Proof/Nibble.lean: entry (o, i) of the dequantized matrix is `weight (packed[o, i / 2]) (scales[o, i / 128]) i`.
-/
import proofs.«408090_j41240275976514_1_alg».proof.Proof.Gen.ReferenceIdeal.Read
import proofs.«408090_j41240275976514_1_alg».proof.Proof.Nibble

noncomputable section

open scoped BigOperators

namespace Cert.ReferenceIdeal.RefValue

open Cert.ReferenceIdeal Cert.ReferenceIdeal.Gen Cert.ReferenceIdeal.Read Idealize.ShloMosaic Idealize.ShloMosaic.ValueIdx
open Cert.QLinear

/-- A field depends on the column only through its parity. -/
theorem field_mod (w : BitVec 32) (i : ℕ) : field w (i % 2) = field w i := by
  unfold field; rw [Nat.mod_mod]

/-- The stacked pair of fields: slot 0 of word (a, k) is its low field, slot 1 its high field. -/
theorem pair_apply (x1 : (⟨S11008x2048, .i32⟩ : BufTy).Contents (Elt Ideal)) (a : Fin 11008) (k : Fin 2048) (b : Fin 2) :
    val_main_v8 (F := Ideal) x1 (ix3 a k b) = field (x1 (ix2 a k)) b.val := by
  unfold val_main_v8
  have e6 : idx_main_v6 (ix3 a k (0 : Fin 1)) = ix2 a k := funext fun d => Fin.ext (by
    match d with | ⟨0, _⟩ => rfl | ⟨1, _⟩ => rfl)
  have e7 : idx_main_v7 (ix3 a k (0 : Fin 1)) = ix2 a k := funext fun d => Fin.ext (by
    match d with | ⟨0, _⟩ => rfl | ⟨1, _⟩ => rfl)
  match b with
  | ⟨0, _⟩ =>
    refine (concatenate_pair_apply_left (t := S11008x2048x2) (s₁ := S11008x2048x1) (s₂ := S11008x2048x1) (2 : Fin 3) _ _ _ (ix3 a k (0 : Fin 2)) rfl (ix3 a k (0 : Fin 1)) (fun d => ?_)).trans ?_
    · match d with | ⟨0, _⟩ => rfl | ⟨1, _⟩ => rfl | ⟨2, _⟩ => rfl
    · rw [val_main_v6_apply, e6, val_main_v1_apply, val_main_v0_apply, val_main_c_apply]
      unfold field; rw [if_pos (by show (0 : ℕ) % 2 = 0; rfl)]
  | ⟨1, _⟩ =>
    refine (concatenate_pair_apply_right (t := S11008x2048x2) (s₁ := S11008x2048x1) (s₂ := S11008x2048x1) (2 : Fin 3) _ _ _ (ix3 a k (1 : Fin 2)) rfl rfl (ix3 a k (0 : Fin 1)) (fun d hd => ?_) ?_).trans ?_
    · match d with | ⟨0, _⟩ => rfl | ⟨1, _⟩ => rfl | ⟨2, _⟩ => exact absurd rfl hd
    · rfl
    · rw [val_main_v7_apply, e7, val_main_v5_apply, val_main_v3_apply, val_main_v2_apply, val_main_c_0_apply,
        val_main_v4_apply, val_main_c_1_apply, shr4_host]
      unfold field; rw [if_neg (by show ¬ ((1 : ℕ) % 2 = 0); decide)]

/-- The flattened fields: column `i` of row `o` holds the field of word `i / 2` that `i`'s parity names. -/
theorem fields_apply (x1 : (⟨S11008x2048, .i32⟩ : BufTy).Contents (Elt Ideal)) (o : Fin 11008) (i : Fin 4096) :
    val_main_v9 (F := Ideal) x1 (ix2 o i) = field (x1 (ix2 o (⟨i.val / 2, by omega⟩ : Fin 2048))) i.val := by
  have e9 : idx_main_v9 (ix2 o i) = ix3 o (⟨i.val / 2, by omega⟩ : Fin 2048) (⟨i.val % 2, by omega⟩ : Fin 2) :=
    funext fun d => Fin.ext (by
      have ho : o.val < 11008 := o.isLt
      have hi : i.val < 4096 := i.isLt
      match d with
      | ⟨0, _⟩ => show (o.val * 4096 + i.val) / 4096 = o.val; omega
      | ⟨1, _⟩ => show (o.val * 4096 + i.val) / 2 % 2048 = i.val / 2; omega
      | ⟨2, _⟩ => show (o.val * 4096 + i.val) % 2 = i.val % 2; omega)
  rw [val_main_v9_apply, e9, pair_apply]
  exact field_mod _ _

/-- THE DEQUANTIZED MATRIX at (o, i): the weight of column `i` from word `i / 2` and the scale of group `i / 128`. -/
theorem weights_apply (x1 : (⟨S11008x2048, .i32⟩ : BufTy).Contents (Elt Ideal)) (x2 : (⟨S11008x32, .f32⟩ : BufTy).Contents (Elt Ideal))
    (o : Fin 11008) (i : Fin 4096) :
    val_main_v17 (F := Ideal) x1 x2 (ix2 o i)
      = weight (x1 (ix2 o (⟨i.val / 2, by omega⟩ : Fin 2048))) (x2 (ix2 o (⟨i.val / 128, by omega⟩ : Fin 32))) i.val := by
  have ho : o.val < 11008 := o.isLt
  have hi : i.val < 4096 := i.isLt
  have e13 : idx_main_v13 (idx_main_v17 (ix2 o i)) = ix2 o i := funext fun d => Fin.ext (by
    match d with
    | ⟨0, _⟩ =>
      show (((o.val * 4096 + i.val) / 4096 * 32 + (o.val * 4096 + i.val) / 128 % 32) * 128 + (o.val * 4096 + i.val) % 128) / 4096 = o.val
      omega
    | ⟨1, _⟩ =>
      show (((o.val * 4096 + i.val) / 4096 * 32 + (o.val * 4096 + i.val) / 128 % 32) * 128 + (o.val * 4096 + i.val) % 128) % 4096 = i.val
      omega)
  have e14 : idx_main_v14 (idx_main_v15 (idx_main_v17 (ix2 o i))) = ix2 o (⟨i.val / 128, by omega⟩ : Fin 32) :=
    funext fun d => Fin.ext (by
      match d with
      | ⟨0, _⟩ => show (o.val * 4096 + i.val) / 4096 = o.val; omega
      | ⟨1, _⟩ => show (o.val * 4096 + i.val) / 128 % 32 = i.val / 128; omega)
  rw [val_main_v17_apply, val_main_v16_apply, val_main_v13_apply, e13, val_main_v12_apply, val_main_v10_apply,
    fields_apply, val_main_v11_apply, val_main_cst_apply, val_main_v15_apply, val_main_v14_apply, e14]
  rfl

/-- THE REFERENCE IS THE LAYER: its result array, as a function of the four arguments, index by index. -/
theorem result_eq (x0 : (⟨S2048x4096, .f32⟩ : BufTy).Contents (Elt Ideal)) (x1 : (⟨S11008x2048, .i32⟩ : BufTy).Contents (Elt Ideal))
    (x2 : (⟨S11008x32, .f32⟩ : BufTy).Contents (Elt Ideal)) (x3 : (⟨S11008, .f32⟩ : BufTy).Contents (Elt Ideal)) :
    val_main_v21 (F := Ideal) x0 x1 x2 x3 = layer x0 x1 x2 x3 := by
  funext j
  obtain ⟨t, o, rfl⟩ : ∃ (t : Fin 2048) (o : Fin 11008), j = ix2 t o := ⟨j 0, j 1, eq_ix2 j⟩
  have el : ∀ k : Fin 4096, lidx_main_v18 (ix2 t o) k = ix2 t k := fun k => funext fun d => Fin.ext (by
    match d with | ⟨0, _⟩ => rfl | ⟨1, _⟩ => rfl)
  have er : ∀ k : Fin 4096, ridx_main_v18 (ix2 t o) k = ix2 o k := fun k => funext fun d => Fin.ext (by
    match d with | ⟨0, _⟩ => rfl | ⟨1, _⟩ => rfl)
  have eb : idx_main_v19 (idx_main_v20 (ix2 t o)) = ix1 o := funext fun d => Fin.ext (by
    match d with | ⟨0, _⟩ => rfl)
  rw [val_main_v21_apply, val_main_v18_apply, val_main_v20_apply, val_main_v19_apply, eb]
  show (∑ k : Fin 4096, x0 (lidx_main_v18 (ix2 t o) k) * val_main_v17 (F := Ideal) x1 x2 (ridx_main_v18 (ix2 t o) k)) + x3 (ix1 o) = _
  unfold layer
  refine congrArg (· + x3 (ix1 o)) (Finset.sum_congr rfl fun k _ => ?_)
  rw [el, er, weights_apply]

end Cert.ReferenceIdeal.RefValue

end
-- ==== Proof.lean ====
/-
  A linear layer with int4 weights: out[t, o] = Σ_i x[t, i] · W[o, i] + bias[o], where W[o, i] is the 4-bit field of
  the packed word packed[o, i / 2] that the parity of `i` names (low field on even columns, high on odd), read as an
  integer, recentred by 8 and multiplied by scales[o, i / 128].

  The kernel computes it block by block on a 4 × 86 grid. Each point dequantizes a [128, 4096] block of W in place —
  it scales both fields of every word, widens each half-width matrix by repeating entries, and interleaves them with
  a 0/1 mask of the even columns, `lo · m + hi · (1 − m)` — then multiplies the `x` block by its transpose and adds the
  bias row. The reference stacks the two fields side by side, flattens, recentres, scales group by group, and
  contracts whole arrays. On the extended reals both are the same sum: the mask arithmetic selects exactly one field
  (`a · 1 = a`, `a · 0 = 0`, `a + 0 = a` hold for every extended real, so no finiteness is used), the two
  dequantizations read the same word and the same scale at every (o, i), a narrowing of the float format is the identity,
  and a product accumulated into zero is the plain contraction. Proof/Nibble.lean states the layer, Proof/KernelBlock.lean
  reads one block of the kernel, Proof/KernelArray.lean assembles the 344 blocks into the output array,
  Proof/RefValue.lean reads the reference; here the five claims are put together. The idealization rewrote nothing, so
  its claim is trivial.
-/
import proofs.«408090_j41240275976514_1_alg».proof.Defs
import proofs.«408090_j41240275976514_1_alg».proof.Proof.Gen.Kernel
import proofs.«408090_j41240275976514_1_alg».proof.Proof.Gen.Kernel.Skeleton
import proofs.«408090_j41240275976514_1_alg».proof.Proof.Gen.Kernel.Launch
import proofs.«408090_j41240275976514_1_alg».proof.Proof.Gen.Kernel.Points
import proofs.«408090_j41240275976514_1_alg».proof.Proof.Gen.Kernel.Frame
import proofs.«408090_j41240275976514_1_alg».proof.Proof.Gen.KernelIdeal
import proofs.«408090_j41240275976514_1_alg».proof.Proof.Gen.KernelIdeal.Skeleton
import proofs.«408090_j41240275976514_1_alg».proof.Proof.Gen.KernelIdeal.Launch
import proofs.«408090_j41240275976514_1_alg».proof.Proof.Gen.KernelIdeal.Points
import proofs.«408090_j41240275976514_1_alg».proof.Proof.Gen.KernelIdeal.Frame
import proofs.«408090_j41240275976514_1_alg».proof.Proof.Gen.ReferenceIdeal
import proofs.«408090_j41240275976514_1_alg».proof.Proof.Gen.Pre_finite_inputs
import proofs.«408090_j41240275976514_1_alg».proof.Proof.Gen.KernelIdeal.Value
import proofs.«408090_j41240275976514_1_alg».proof.Proof.Gen.ReferenceIdeal.Run
import proofs.«408090_j41240275976514_1_alg».proof.Proof.Gen.ReferenceIdeal.Read
import proofs.«408090_j41240275976514_1_alg».proof.Proof.KernelArray
import proofs.«408090_j41240275976514_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their (agreeing) arguments in the result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
